-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : IVec S1600000 32) (main_arg2 : IVec S1600000 32) (main_arg3 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_c_2 : IVec S_ 32 := constantI S_ 32 4294867296#32
  let main_v9 : IVec S1600000 32 := broadcastInDim S1600000 ![] bcast_S_S1600000 main_c_2
  let main_v10 : IVec S1600000 1 := cmpi .sge main_arg2 main_v9
  let main_c_3 : IVec S_ 32 := constantI S_ 32 100000#32
  let main_v11 : IVec S1600000 32 := broadcastInDim S1600000 ![] bcast_S_S1600000 main_c_3
  let main_v12 : IVec S1600000 1 := cmpi .slt main_arg2 main_v11
  let main_v13 : IVec S1600000 1 := andi main_v10 main_v12
  let main_c_4 : IVec S_ 1 := constantI S_ 1 1#1
  let main_v14 : IVec S_ 1 := (fun x v => Host.reduce IntOp.andi x v reducesTo_S1600000_S_d0 h_S_) main_v13 main_c_4
  let main_v15 : IVec S_ 1 := andi main_v8 main_v14
  main_v15
-- ==== Kernel.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S12800x64 : Shape := ⟨2, ![12800, 64]⟩
abbrev S12800x1 : Shape := ⟨2, ![12800, 1]⟩

abbrev nBuf : Space → Nat
  | .hbm => 62
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1, .i32⟩
  | .hbm, ⟨13, _⟩ => ⟨S_, .i32⟩
  | .hbm, ⟨14, _⟩ => ⟨S1600000x1, .i32⟩
  | .hbm, ⟨15, _⟩ => ⟨S1600000x1, .i1⟩
  | .hbm, ⟨16, _⟩ => ⟨S1x1, .i32⟩
  | .hbm, ⟨17, _⟩ => ⟨S1600000x1, .i32⟩
  | .hbm, ⟨18, _⟩ => ⟨S1600000x1, .i1⟩
  | .hbm, ⟨19, _⟩ => ⟨S1600000x1, .i1⟩
  | .hbm, ⟨20, _⟩ => ⟨S_, .i1⟩
  | .hbm, ⟨21, _⟩ => ⟨S1600000, .i1⟩
  | .hbm, ⟨22, _⟩ => ⟨S1600000x64, .f32⟩
  | .hbm, ⟨23, _⟩ => ⟨S1600000x64, .i1⟩
  | .hbm, ⟨24, _⟩ => ⟨S_, .f32⟩
  | .hbm, ⟨25, _⟩ => ⟨S1600000x64, .f32⟩
  | .hbm, ⟨26, _⟩ => ⟨S1600000x64, .f32⟩
  | .hbm, ⟨27, _⟩ => ⟨S1600000x1, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x64, .f32⟩
  | .hbm, ⟨52, _⟩ => ⟨S1600000x64, .i1⟩
  | .hbm, ⟨53, _⟩ => ⟨S_, .f32⟩
  | .hbm, ⟨54, _⟩ => ⟨S1600000x64, .f32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .local _ .vmem, ⟨0, _⟩ => ⟨S12800x64, .f32⟩
  | .local _ .vmem, ⟨1, _⟩ => ⟨S12800x64, .f32⟩
  | .local _ .vmem, ⟨2, _⟩ => ⟨S12800x1, .f32⟩
  | .local _ .vmem, ⟨3, _⟩ => ⟨S12800x1, .f32⟩
  | .local _ .vmem, ⟨4, _⟩ => ⟨S12800x64, .f32⟩
  | .local _ .vmem, ⟨5, _⟩ => ⟨S12800x64, .f32⟩
  | .local _ .vmem, ⟨6, _⟩ => ⟨S12800x64, .f32⟩
  | .local _ .vmem, ⟨7, _⟩ => ⟨S12800x64, .f32⟩
  | .local _ .vmem, ⟨8, _⟩ => ⟨S12800x1, .f32⟩
  | .local _ .vmem, ⟨9, _⟩ => ⟨S12800x1, .f32⟩
  | .local _ .vmem, ⟨10, _⟩ => ⟨S12800x64, .f32⟩
  | .local _ .vmem, ⟨11, _⟩ => ⟨S12800x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_0 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12800x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1600000_S1600000x1 : S1600000.ShapeCasts S1600000x1
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x64 : S12800x1.Broadcasts S12800x64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S1600000x1.size a
  hwx0_1 : ∀ i : grid0.Coords, EltTy.bits .f32 = 32 ∨ (Rect.block (s := S1600000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x64.size a ≤ S1600000x64.size a
  hwx0_2 : ∀ i : grid0.Coords, EltTy.bits .f32 = 32 ∨ (Rect.block (s := S1600000x64) S12800x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x64.size a ≤ S1600000x64.size a
  hwx1_0 : ∀ i : grid1.Coords, EltTy.bits .f32 = 32 ∨ (Rect.block (s := S1600000x64) S12800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x1.size a ≤ S1600000x1.size a
  hwx1_1 : ∀ i : grid1.Coords, EltTy.bits .f32 = 32 ∨ (Rect.block (s := S1600000x1) S12800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12800x64.size a ≤ S1600000x64.size a
  hwx1_2 : ∀ i : grid1.Coords, EltTy.bits .f32 = 32 ∨ (Rect.block (s := S1600000x64) S12800x64.size (cc1_transform_2 i) (hinb1_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v0) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12800x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S12800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S12800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S12800x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000x1, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S1600000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.ScaleRegion.lean ====
/-
  The scaling kernel's value. Each of the two launches runs over 125 blocks of 12800 edges; at a block the body loads
  the gathered rows g (12800 x 64) and the weights w (12800 x 1), broadcasts w along the 64 features and stores g * w.
  So what a launch leaves in its result array is ONE function of the two arrays it entered with: entry (e, d) is
  g(e, d) * w(e, 0). Written here: that function (`scaled`), the body's store read at an index, what each point
  writes back as a block of `scaled`, that the blocks tile the 1600000 rows, and hence the whole array after the launch.
-/
import proofs.«410703_j6279242186783_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Scale

open Cert.KernelIdeal Cert.KernelIdeal.Gen

variable {F : FTy → Type} [FloatOps F]

theorem hz : (![0, 0] : Fin 2 → Nat) = fun _ => 0 := funext fun a => by fin_cases a <;> rfl

/-- The weight column's index for an index of the edge array: the same edge, column 0. -/
abbrev rowOf (i : S1600000x64.Idx) : S1600000x1.Idx := ix2 (i 0) 0
/-- The same inside a block of 12800 edges. -/
abbrev colOf (j : S12800x64.Idx) : S12800x1.Idx := ix2 (j 0) 0

/-- The edge array g scaled row by row by the weight column w: entry (e, d) is g(e, d) * w(e, 0). -/
def scaled (g : S1600000x64.Idx → Elt F .f32) (w : S1600000x1.Idx → Elt F .f32) : S1600000x64.Idx → Elt F .f32 :=
  fun i => FloatOps.mulf (g i) (w (rowOf i))

variable (V : (c : Dev nD) → (b : Ref sig .tc) → Buf (Elt F) ((c : Thread nD τ).loc b))

/-! ## Region 0: the edge rows scaled by their weights -/

/-- The index maps of region 0, decided over its 125 points: every window's block index is the point's number on
    the edge axis and zero on the feature axis. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's one store, read at an index of the block: the gathered row's entry times the row's weight. -/
theorem pay0_eq (v0 : Vec F S12800x1 .f32) (v4 : Vec F S12800x64 .f32) :
    k0_pay1 v0 v4 = fun j : S12800x64.Idx => FloatOps.mulf (v4 j) (v0 (colOf j)) := by
  funext j
  unfold k0_pay1
  simp only [shapeCast_self]
  show FloatOps.mulf (v4 j) (broadcastTo S12800x64 v0 _ j) = _
  refine congrArg (FloatOps.mulf (v4 j)) ?_
  exact broadcastTo_apply v0 _ j (colOf j) (fun a => by match a with | ⟨0, _⟩ => rfl | ⟨1, _⟩ => rfl)

/-- What point `t` writes back is block `t` of the scaled edge array. -/
theorem flushed0_eq (c : Dev nD) (t : Fin cfg0.N) :
    (dat0 V c).flushed 2 t = ((cfg0.win 2).blk t).view.read (Elt F) (scaled (V c main_v0) (V c main_v1)) := by
  show (cfg0.win 2).cut (grid0.coords t) ((dat0 V c).after 2 t) = _
  rw [after0_2]
  unfold out0_2
  rw [View.canon_unit_zero hz]
  simp only [View.ld_unit_zero (S := S12800x64) hz, View.ld_unit_zero (S := S12800x1) hz]
  rw [pay0_eq]
  obtain ⟨e0, e1, e2, e3, e4, e5⟩ := idx_facts0 t
  funext j
  show FloatOps.mulf (V c main_v0 (((cfg0.win 0).blk t).view.emb j)) (V c main_v1 (((cfg0.win 1).blk t).view.emb (colOf j)))
    = FloatOps.mulf (V c main_v0 (((cfg0.win 2).blk t).view.emb j)) (V c main_v1 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 12800 + 1 * (j 0).val = win0_2.index t (0 : Fin 2) * 12800 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (colOf j) = rowOf (((cfg0.win 2).blk t).view.emb j) := by
    funext a; apply Fin.ext
    match a with
    | ⟨0, _⟩ => show win0_1.index t (0 : Fin 2) * 12800 + 1 * (j 0).val = win0_2.index t (0 : Fin 2) * 12800 + 1 * (j 0).val; omega
    | ⟨1, _⟩ => show win0_1.index t (1 : Fin 2) * 1 + 1 * 0 = 0; omega
  rw [h0, h1]

/-- An index of the edge array is in point `t`'s block iff each coordinate is in the block's range on its axis. -/
theorem mem_blk0 (t : Fin cfg0.N) (i : S1600000x64.Idx) :
    i ∈ ((cfg0.win 2).blk t).view.set ↔ ∀ a : Fin 2, win0_2.index t a * S12800x64.size a ≤ (i a).val ∧ (i a).val < win0_2.index t a * S12800x64.size a + S12800x64.size a := by
  show i ∈ ((View.whole main_v2).slice (win0_2.rect t)).set ↔ _
  rw [View.set_slice_whole, Rect.mem_set_unit]
  exact Iff.rfl

/-- The 125 blocks of 12800 rows tile the 1600000 rows: row `r` is in the block of point `r / 12800`. -/
theorem cover0 (i : S1600000x64.Idx) :
    ∃ t : Fin cfg0.N, (cfg0.win 2).flush t = true ∧ i ∈ ((cfg0.win 2).blk t).view.set := by
  have hi0 : (i 0).val < 1600000 := (i 0).isLt
  have hi1 : (i 1).val < 64 := (i 1).isLt
  have hN : cfg0.N = 125 := N_0
  obtain ⟨t, ht⟩ : ∃ t : Fin cfg0.N, t.val = (i 0).val / 12800 := ⟨⟨(i 0).val / 12800, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 12800 ≤ (i 0).val ∧ (i 0).val < win0_2.index t (0 : Fin 2) * 12800 + 12800; omega
  | ⟨1, _⟩ => show win0_2.index t (1 : Fin 2) * 64 ≤ (i 1).val ∧ (i 1).val < win0_2.index t (1 : Fin 2) * 64 + 64; omega

/-- After region 0 its result array holds the scaled edge array of the two arrays it entered with. -/
theorem final0 (c : Dev nD) : (dat0 V c).arrAt 2 cfg0.N = scaled (V c main_v0) (V c main_v1) :=
  (dat0 V c).arrAt_eq_of_cover 2 (scaled (V c main_v0) (V c main_v1)) (fun t _ => flushed0_eq V c t) cover0

/-! ## Region 1: the edge rows scaled by their weights -/

/-- The index maps of region 1, decided over its 125 points: every window's block index is the point's number on
    the edge axis and zero on the feature axis. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's one store, read at an index of the block: the gathered row's entry times the row's weight. -/
theorem pay1_eq (v0 : Vec F S12800x1 .f32) (v4 : Vec F S12800x64 .f32) :
    k1_pay1 v0 v4 = fun j : S12800x64.Idx => FloatOps.mulf (v4 j) (v0 (colOf j)) := by
  funext j
  unfold k1_pay1
  simp only [shapeCast_self]
  show FloatOps.mulf (v4 j) (broadcastTo S12800x64 v0 _ j) = _
  refine congrArg (FloatOps.mulf (v4 j)) ?_
  exact broadcastTo_apply v0 _ j (colOf j) (fun a => by match a with | ⟨0, _⟩ => rfl | ⟨1, _⟩ => rfl)

/-- What point `t` writes back is block `t` of the scaled edge array. -/
theorem flushed1_eq (c : Dev nD) (t : Fin cfg1.N) :
    (dat1 V c).flushed 2 t = ((cfg1.win 2).blk t).view.read (Elt F) (scaled (V c main_v6) (V c main_v7)) := by
  show (cfg1.win 2).cut (grid1.coords t) ((dat1 V c).after 2 t) = _
  rw [after1_2]
  unfold out1_2
  rw [View.canon_unit_zero hz]
  simp only [View.ld_unit_zero (S := S12800x64) hz, View.ld_unit_zero (S := S12800x1) hz]
  rw [pay1_eq]
  obtain ⟨e0, e1, e2, e3, e4, e5⟩ := idx_facts1 t
  funext j
  show FloatOps.mulf (V c main_v6 (((cfg1.win 0).blk t).view.emb j)) (V c main_v7 (((cfg1.win 1).blk t).view.emb (colOf j)))
    = FloatOps.mulf (V c main_v6 (((cfg1.win 2).blk t).view.emb j)) (V c main_v7 (rowOf (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 12800 + 1 * (j 0).val = win1_2.index t (0 : Fin 2) * 12800 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (colOf j) = rowOf (((cfg1.win 2).blk t).view.emb j) := by
    funext a; apply Fin.ext
    match a with
    | ⟨0, _⟩ => show win1_1.index t (0 : Fin 2) * 12800 + 1 * (j 0).val = win1_2.index t (0 : Fin 2) * 12800 + 1 * (j 0).val; omega
    | ⟨1, _⟩ => show win1_1.index t (1 : Fin 2) * 1 + 1 * 0 = 0; omega
  rw [h0, h1]

/-- An index of the edge array is in point `t`'s block iff each coordinate is in the block's range on its axis. -/
theorem mem_blk1 (t : Fin cfg1.N) (i : S1600000x64.Idx) :
    i ∈ ((cfg1.win 2).blk t).view.set ↔ ∀ a : Fin 2, win1_2.index t a * S12800x64.size a ≤ (i a).val ∧ (i a).val < win1_2.index t a * S12800x64.size a + S12800x64.size a := by
  show i ∈ ((View.whole main_v8).slice (win1_2.rect t)).set ↔ _
  rw [View.set_slice_whole, Rect.mem_set_unit]
  exact Iff.rfl

/-- The 125 blocks of 12800 rows tile the 1600000 rows: row `r` is in the block of point `r / 12800`. -/
theorem cover1 (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 125 := N_1
  obtain ⟨t, ht⟩ : ∃ t : Fin cfg1.N, t.val = (i 0).val / 12800 := ⟨⟨(i 0).val / 12800, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 12800 ≤ (i 0).val ∧ (i 0).val < win1_2.index t (0 : Fin 2) * 12800 + 12800; omega
  | ⟨1, _⟩ => show win1_2.index t (1 : Fin 2) * 64 ≤ (i 1).val ∧ (i 1).val < win1_2.index t (1 : Fin 2) * 64 + 64; omega

/-- After region 1 its result array holds the scaled edge array of the two arrays it entered with. -/
theorem final1 (c : Dev nD) : (dat1 V c).arrAt 2 cfg1.N = scaled (V c main_v6) (V c main_v7) :=
  (dat1 V c).arrAt_eq_of_cover 2 (scaled (V c main_v6) (V c main_v7)) (fun t _ => flushed1_eq V c t) cover1

end Cert.KernelIdeal.Scale

end
-- ==== Proof.Spec.lean ====
/-
  The program between its launches, as pure functions of the four arguments.
  A product with the sparse matrix is: normalise the column indices as numpy does (a negative index counts from the
  end: `wrap`), gather the table's rows at them, keep a gathered row only where its normalised index is inside
  0 … 99999 and put the fill pattern elsewhere (`inRange`, `take`), scale row e by the weight of edge e (the launch:
  `Scale.scaled`), and add the scaled rows into the rows the row indices name, from zero (`spmm`).
  Each is the printed operations' own term, so that a host stretch's result buffer, read over ANY contents `W` of the
  buffers before the stretch, is such a function of `W` at the stretch's operands (`after_take0` … `after_sum2`), and a
  stretch leaves the arguments alone (`kept0` … `kept2`).
-/
import proofs.«410703_j6279242186783_2_alg».proof.Proof.ScaleRegion
import Idealize.ShloMosaic.Lib.StableHlo.Run

set_option maxRecDepth 16384

noncomputable section

open Idealize.ShloMosaic Idealize.ShloMosaic.TcCoe Idealize.SL.Sem

namespace Cert.KernelIdeal.Spec

open Cert.KernelIdeal Cert.KernelIdeal.Gen

variable {F : FTy → Type} [FloatOps F]

/-- numpy's index normalisation, as a column: a negative index has the table's 100000 rows added. -/
def wrap (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- Where a normalised index lies in 0 … 99999, spread over the 64 features of its row. -/
def inRange (idx : IVec S1600000x1 32) : IVec S1600000x64 1 :=
  broadcastInDim S1600000x64 ![0] bcast_S1600000_S1600000x64_0
    (Host.reduce IntOp.andi
      (andi (cmpi .sge idx (broadcastInDim S1600000x1 ![] bcast_S_S1600000x1 (constantI S_ 32 0#32)))
        (cmpi .sle idx (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The table's rows at the column indices, the fill pattern where an index is out of range. -/
def take (h : FVec F S100000x64 .f32) (col : IVec S1600000 32) : FVec F S1600000x64 .f32 :=
  select (inRange (wrap col))
    (Host.gather gather_S100000x64_S1600000x1_S1600000x64_1_0_n_n_0_1_164 h (wrap col))
    (broadcastInDim S1600000x64 ![] bcast_S_S1600000x64 (constant S_ .f32 0x7FC00000#32))

/-- The scaled edge rows added into the table's rows that the row indices name, from zero. -/
def sumRows (row : IVec S1600000 32) (msg : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row) msg

/-- The weights as a column. -/
def weights (ev : FVec F S1600000 .f32) : FVec F S1600000x1 .f32 :=
  fun i => shapeCast S1600000x1 ev shapeCasts_S1600000_S1600000x1 i

/-- One product with the sparse matrix. -/
def spmm (h : FVec F S100000x64 .f32) (row col : IVec S1600000 32) (ev : FVec F S1600000 .f32) : FVec F S100000x64 .f32 :=
  sumRows row (Scale.scaled (take h col) (weights ev))

variable (W : Valuation τ sig (Elt F))

/-! ## Each host stretch's result over the contents before it

The operations of the two calls of the outlined gather are stated over references that carry their tensor type; a
value passes to such a reference's own buffer type and back by a transport along an equation that holds by
computation, so the transports are identities: in pairs (`ofBuf_toBuf`) and, at a literal reference, one by one. -/

/-- Contents moved to a typed reference's own buffer type and back are the contents. -/
theorem ofBuf_toBuf {T : BufTy} (x : StableHlo.TRef sig T) (v : T.Contents (Elt F)) : x.ofBuf (x.toBuf v) = v := by
  obtain ⟨r, rfl, _, _⟩ := x; rfl

theorem toBuf_v0 (v : (⟨S1600000x64, .f32⟩ : BufTy).Contents (Elt F)) :
    (StableHlo.TRef.of main_v0 : StableHlo.TRef sig ⟨S1600000x64, .f32⟩).toBuf v = v := rfl
theorem toBuf_v6 (v : (⟨S1600000x64, .f32⟩ : BufTy).Contents (Elt F)) :
    (StableHlo.TRef.of main_v6 : StableHlo.TRef sig ⟨S1600000x64, .f32⟩).toBuf v = v := rfl
theorem ofBuf_arg0 (v : (main_arg0 : Ref sig .tc).ty.Contents (Elt F)) :
    (StableHlo.TRef.of main_arg0 : StableHlo.TRef sig ⟨S100000x64, .f32⟩).ofBuf v = v := rfl
theorem ofBuf_v5 (v : (main_v5 : Ref sig .tc).ty.Contents (Elt F)) :
    (StableHlo.TRef.of main_v5 : StableHlo.TRef sig ⟨S100000x64, .f32⟩).ofBuf v = v := rfl
theorem ofBuf_arg2 (v : (main_arg2 : Ref sig .tc).ty.Contents (Elt F)) :
    (StableHlo.TRef.of main_arg2 : StableHlo.TRef sig ⟨S1600000, .i32⟩).ofBuf v = v := rfl

set_option maxHeartbeats 2000000 in
theorem after_take0 : StableHlo.after hostOps0 W (Proc.devRef .tc main_v0)
    = take (W (Proc.devRef .tc main_arg0)) (W (Proc.devRef .tc main_arg2)) := by
  after_results_simp
  simp only [ofBuf_toBuf, toBuf_v0, ofBuf_arg0, ofBuf_arg2]
  rfl

theorem after_weights0 : StableHlo.after hostOps0_1 W (Proc.devRef .tc main_v1) = weights (W (Proc.devRef .tc main_arg3)) := by
  after_results; rfl

theorem after_sum1 : StableHlo.after hostOps1 W (Proc.devRef .tc main_v5)
    = sumRows (W (Proc.devRef .tc main_arg1)) (W (Proc.devRef .tc main_v2)) := by
  after_results; rfl

set_option maxHeartbeats 2000000 in
theorem after_take1 : StableHlo.after hostOps1_1 W (Proc.devRef .tc main_v6)
    = take (W (Proc.devRef .tc main_v5)) (W (Proc.devRef .tc main_arg2)) := by
  after_results_simp
  simp only [ofBuf_toBuf, toBuf_v6, ofBuf_v5, ofBuf_arg2]
  rfl

theorem after_weights1 : StableHlo.after hostOps1_2 W (Proc.devRef .tc main_v7) = weights (W (Proc.devRef .tc main_arg3)) := by
  after_results; rfl

theorem after_sum2 : StableHlo.after hostOps2 W (Proc.devRef .tc main_v11)
    = sumRows (W (Proc.devRef .tc main_arg1)) (W (Proc.devRef .tc main_v8)) := by
  after_results; rfl

/-! ## What a stretch does not write it leaves: the index and weight arguments, and a gathered array across the reshape -/

set_option maxHeartbeats 2000000 in
theorem kept0 : StableHlo.after hostOps0 W (Proc.devRef .tc main_arg1) = W (Proc.devRef .tc main_arg1)
    ∧ StableHlo.after hostOps0 W (Proc.devRef .tc main_arg2) = W (Proc.devRef .tc main_arg2)
    ∧ StableHlo.after hostOps0 W (Proc.devRef .tc main_arg3) = W (Proc.devRef .tc main_arg3) := by
  refine ⟨?_, ?_, ?_⟩ <;> after_results_simp

theorem kept0_1 : StableHlo.after hostOps0_1 W (Proc.devRef .tc main_arg1) = W (Proc.devRef .tc main_arg1)
    ∧ StableHlo.after hostOps0_1 W (Proc.devRef .tc main_arg2) = W (Proc.devRef .tc main_arg2)
    ∧ StableHlo.after hostOps0_1 W (Proc.devRef .tc main_arg3) = W (Proc.devRef .tc main_arg3)
    ∧ StableHlo.after hostOps0_1 W (Proc.devRef .tc main_v0) = W (Proc.devRef .tc main_v0) := by
  refine ⟨?_, ?_, ?_, ?_⟩ <;> after_results

theorem kept1 : StableHlo.after hostOps1 W (Proc.devRef .tc main_arg1) = W (Proc.devRef .tc main_arg1)
    ∧ StableHlo.after hostOps1 W (Proc.devRef .tc main_arg2) = W (Proc.devRef .tc main_arg2)
    ∧ StableHlo.after hostOps1 W (Proc.devRef .tc main_arg3) = W (Proc.devRef .tc main_arg3) := by
  refine ⟨?_, ?_, ?_⟩ <;> after_results

set_option maxHeartbeats 2000000 in
theorem kept1_1 : StableHlo.after hostOps1_1 W (Proc.devRef .tc main_arg1) = W (Proc.devRef .tc main_arg1)
    ∧ StableHlo.after hostOps1_1 W (Proc.devRef .tc main_arg2) = W (Proc.devRef .tc main_arg2)
    ∧ StableHlo.after hostOps1_1 W (Proc.devRef .tc main_arg3) = W (Proc.devRef .tc main_arg3) := by
  refine ⟨?_, ?_, ?_⟩ <;> after_results_simp

theorem kept1_2 : StableHlo.after hostOps1_2 W (Proc.devRef .tc main_arg1) = W (Proc.devRef .tc main_arg1)
    ∧ StableHlo.after hostOps1_2 W (Proc.devRef .tc main_arg2) = W (Proc.devRef .tc main_arg2)
    ∧ StableHlo.after hostOps1_2 W (Proc.devRef .tc main_arg3) = W (Proc.devRef .tc main_arg3)
    ∧ StableHlo.after hostOps1_2 W (Proc.devRef .tc main_v6) = W (Proc.devRef .tc main_v6) := by
  refine ⟨?_, ?_, ?_, ?_⟩ <;> after_results

end Cert.KernelIdeal.Spec

end
-- ==== Proof.KernelValue.lean ====
/-
  The program's result, read through its eight segments. From the launch memory m the buffer contents pass through
  the first gather (t0 = take x col), the reshape of the weights (w), the first launch (r0 = scaled t0 w), the first
  scatter-add (h1 = sumRows row r0, the first product), then the same four steps from h1 (t1, w, r1, out). At every
  boundary the three index and weight arguments are as launched (no operation and no launch writes them), a host
  stretch's result is Spec's function of the contents before it, and a launch leaves its result array at the scaled
  edge array of the two arrays it entered with (ScaleRegion). So the result buffer ends at spmm (spmm x).
-/
import proofs.«410703_j6279242186783_2_alg».proof.Proof.Spec
import proofs.«410703_j6279242186783_2_alg».proof.Proof.KernelRun

set_option maxRecDepth 16384

noncomputable section

open Idealize.ShloMosaic Idealize.ShloMosaic.TcCoe Idealize.SL.Sem

namespace Cert.KernelIdeal.Fold

open Cert.KernelIdeal Cert.KernelIdeal.Gen Cert.KernelIdeal.Spec

variable {F : FTy → Type} [FloatOps F]
variable (m : (ℓ : Loc nD τ sig) → Buf (Elt F) ℓ) (ρ : Dev nD → PrngReg)

/-! ## The arguments at every boundary -/

theorem W1_args (c : Dev nD) : W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3) :=
  kept0 (W0 m ρ c)

theorem W2_args (c : Dev nD) : W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3) :=
  ⟨(kept0_1 (W1 m ρ c)).1.trans (W1_args m ρ c).1, (kept0_1 (W1 m ρ c)).2.1.trans (W1_args m ρ c).2.1,
    (kept0_1 (W1 m ρ c)).2.2.1.trans (W1_args m ρ c).2.2⟩

theorem W3_args (c : Dev nD) : W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg3) = m ((c : Thread nD τ).loc main_arg3) :=
  ⟨(W3_of_ne m ρ c main_arg1 (by decide)).trans (W2_args m ρ c).1, (W3_of_ne m ρ c main_arg2 (by decide)).trans (W2_args m ρ c).2.1,
    (W3_of_ne m ρ c main_arg3 (by decide)).trans (W2_args m ρ c).2.2⟩

theorem W4_args (c : Dev nD) : W4 m ρ c (Proc.devRef .tc main_arg1) = m ((c : Thread nD τ).loc main_arg1)
    ∧ W4 m ρ c (Proc.devRef .tc main_arg2) = m ((c : Thread nD τ).loc main_arg2)
    ∧ W4 m ρ c (Proc.devRef .tc main_arg3) = m ((c : Thread nD τ).loc main_arg3) :=
  ⟨(kept1 (W3 m ρ c)).1.trans (W3_args m ρ c).1, (kept1 (W3 m ρ c)).2.1.trans (W3_args m ρ c).2.1,
    (kept1 (W3 m ρ c)).2.2.trans (W3_args m ρ c).2.2⟩

theorem W5_args (c : Dev nD) : W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3) :=
  ⟨(kept1_1 (W4 m ρ c)).1.trans (W4_args m ρ c).1, (kept1_1 (W4 m ρ c)).2.1.trans (W4_args m ρ c).2.1,
    (kept1_1 (W4 m ρ c)).2.2.trans (W4_args m ρ c).2.2⟩

theorem W6_args (c : Dev nD) : W6 m ρ c (Proc.devRef .tc main_arg1) = m ((c : Thread nD τ).loc main_arg1)
    ∧ W6 m ρ c (Proc.devRef .tc main_arg2) = m ((c : Thread nD τ).loc main_arg2)
    ∧ W6 m ρ c (Proc.devRef .tc main_arg3) = m ((c : Thread nD τ).loc main_arg3) :=
  ⟨(kept1_2 (W5 m ρ c)).1.trans (W5_args m ρ c).1, (kept1_2 (W5 m ρ c)).2.1.trans (W5_args m ρ c).2.1,
    (kept1_2 (W5 m ρ c)).2.2.1.trans (W5_args m ρ c).2.2⟩

theorem W7_args (c : Dev nD) : W7 m ρ c (Proc.devRef .tc main_arg1) = m ((c : Thread nD τ).loc main_arg1)
    ∧ W7 m ρ c (Proc.devRef .tc main_arg2) = m ((c : Thread nD τ).loc main_arg2)
    ∧ W7 m ρ c (Proc.devRef .tc main_arg3) = m ((c : Thread nD τ).loc main_arg3) :=
  ⟨(W7_of_ne m ρ c main_arg1 (by decide)).trans (W6_args m ρ c).1, (W7_of_ne m ρ c main_arg2 (by decide)).trans (W6_args m ρ c).2.1,
    (W7_of_ne m ρ c main_arg3 (by decide)).trans (W6_args m ρ c).2.2⟩

/-! ## The first product -/

/-- The first gather. -/
theorem W2_v0 (c : Dev nD) : W2 m ρ c (Proc.devRef .tc main_v0) = take (m ((c : Thread nD τ).loc main_arg0)) (m ((c : Thread nD τ).loc main_arg2)) :=
  (kept0_1 (W1 m ρ c)).2.2.2.trans (after_take0 (W0 m ρ c))

/-- The weights as a column. -/
theorem W2_v1 (c : Dev nD) : W2 m ρ c (Proc.devRef .tc main_v1) = weights (m ((c : Thread nD τ).loc main_arg3)) :=
  (after_weights0 (W1 m ρ c)).trans (congrArg weights (W1_args m ρ c).2.2)

/-- The first launch's result array. -/
theorem W3_v2 (c : Dev nD) : W3 m ρ c (Proc.devRef .tc main_v2)
    = Scale.scaled (take (m ((c : Thread nD τ).loc main_arg0)) (m ((c : Thread nD τ).loc main_arg2))) (weights (m ((c : Thread nD τ).loc main_arg3))) := by
  refine (W3_arr m ρ c 2).trans ((Scale.final0 (V2 m ρ) c).trans ?_)
  show Scale.scaled (W2 m ρ c (Proc.devRef .tc main_v0)) (W2 m ρ c (Proc.devRef .tc main_v1)) = _
  rw [W2_v0, W2_v1]

/-- The first product. -/
theorem W4_v5 (c : Dev nD) : W4 m ρ c (Proc.devRef .tc main_v5) = spmm (m ((c : Thread nD τ).loc main_arg0)) (m ((c : Thread nD τ).loc main_arg1)) (m ((c : Thread nD τ).loc main_arg2)) (m ((c : Thread nD τ).loc main_arg3)) := by
  refine (after_sum1 (W3 m ρ c)).trans ?_
  rw [(W3_args m ρ c).1, W3_v2]
  rfl

/-! ## The second product -/

theorem W6_v6 (c : Dev nD) : W6 m ρ c (Proc.devRef .tc main_v6)
    = take (spmm (m ((c : Thread nD τ).loc main_arg0)) (m ((c : Thread nD τ).loc main_arg1)) (m ((c : Thread nD τ).loc main_arg2)) (m ((c : Thread nD τ).loc main_arg3))) (m ((c : Thread nD τ).loc main_arg2)) := by
  refine (kept1_2 (W5 m ρ c)).2.2.2.trans ((after_take1 (W4 m ρ c)).trans ?_)
  rw [W4_v5, (W4_args m ρ c).2.1]

theorem W6_v7 (c : Dev nD) : W6 m ρ c (Proc.devRef .tc main_v7) = weights (m ((c : Thread nD τ).loc main_arg3)) :=
  (after_weights1 (W5 m ρ c)).trans (congrArg weights (W5_args m ρ c).2.2)

theorem W7_v8 (c : Dev nD) : W7 m ρ c (Proc.devRef .tc main_v8)
    = Scale.scaled (take (spmm (m ((c : Thread nD τ).loc main_arg0)) (m ((c : Thread nD τ).loc main_arg1)) (m ((c : Thread nD τ).loc main_arg2)) (m ((c : Thread nD τ).loc main_arg3))) (m ((c : Thread nD τ).loc main_arg2))) (weights (m ((c : Thread nD τ).loc main_arg3))) := by
  refine (W7_arr m ρ c 2).trans ((Scale.final1 (V6 m ρ) c).trans ?_)
  show Scale.scaled (W6 m ρ c (Proc.devRef .tc main_v6)) (W6 m ρ c (Proc.devRef .tc main_v7)) = _
  rw [W6_v6, W6_v7]

/-- The result buffer after the last segment: the two products. -/
theorem W8_v11 (c : Dev nD) : W8 m ρ c (Proc.devRef .tc main_v11)
    = spmm (spmm (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3)) := by
  refine (after_sum2 (W7 m ρ c)).trans ?_
  rw [(W7_args m ρ c).1, W7_v8]
  rfl

/-- The program's run with its result read: every weakly fair execution terminates without a fault, the result
    buffer at the two products, the arguments as launched. -/
theorem run : θ_run defs (onTc (τ := τ) (main (F := F))) ⟨m, fun _ => 0, ρ⟩ (fun r => ∀ c : Dev nD,
      r.2.mem ((c.tc : Thread nD τ).loc main_v11)
        = spmm (spmm (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W8_v11 m ρ c), (h c).2⟩) (Cert.KernelIdeal.Run.run m ρ)

end Cert.KernelIdeal.Fold

end
-- ==== Proof.InRange.lean ====
/-
  Where the gathered rows are kept. The outlined gather keeps row e only where the normalised column index of edge e
  lies in 0 … 99999. If every column index c satisfies -100000 ≤ c < 100000 (as 32-bit signed words) then its
  normalisation — c + 100000 when c < 0, else c — lies in 0 … 99999: for c < 0 the sum c + 100000 is in 0 … 99999
  and does not wrap around the word; for c ≥ 0 it is c < 100000 itself. So the mask is 1 everywhere and the gather
  with its fill is the plain gather. The hypothesis is what the precondition's last conjunct says, read back from
  its printed form: an `and` of three words is 1 only if each is, and a reduction by `and` over all edges is 1 only
  if every edge's word is.
-/
import proofs.«410703_j6279242186783_2_alg».proof.Proof.Spec
import proofs.«410703_j6279242186783_2_alg».proof.Pre_finite_inputs
import proofs.«410703_j6279242186783_2_alg».proof.Proof.Gen.Pre_finite_inputs
import Idealize.ShloMosaic.Lib.StableHlo.Predicate
import Idealize.ShloMosaic.Lib.ReduceAll

set_option maxRecDepth 16384

noncomputable section

open Idealize.ShloMosaic Idealize.ShloMosaic.TcCoe Idealize.SL.Sem

namespace Cert.KernelIdeal.InRange

open Cert.KernelIdeal Cert.KernelIdeal.Gen Cert.KernelIdeal.Spec

variable {F : FTy → Type} [FloatOps F]

/-- numpy's normalisation of one index word. -/
def wrapS (x : BitVec 32) : BitVec 32 := Scalar.select (IntOp.cmpi .slt x 0#32) (IntOp.addi x 100000#32) x

/-- A word in -100000 … 99999 normalises into 0 … 99999. -/
theorem wrapS_ok (x : BitVec 32) (h1 : (4294867296#32).sle x = true) (h2 : x.slt 100000#32 = true) :
    IntOp.andi (IntOp.cmpi .sge (wrapS x) 0#32) (IntOp.cmpi .sle (wrapS x) 99999#32) = 1#1 := by
  have hx := x.isLt
  have key : (0#32).sle (wrapS x) = true ∧ (wrapS x).sle 99999#32 = true := by
    unfold wrapS Scalar.select IntOp.cmpi IntOp.addi
    simp only [BitVec.sle, BitVec.slt, decide_eq_true_eq, BitVec.toInt_eq_toNat_cond, BitVec.toNat_ofNat] at h1 h2
    split_ifs with hc
    · have hneg : x.slt 0#32 = true := (StableHlo.Predicate.ofBool_eq_one_iff _).1 hc
      simp only [BitVec.slt, decide_eq_true_eq, BitVec.toInt_eq_toNat_cond, BitVec.toNat_ofNat] at hneg
      simp only [BitVec.sle, decide_eq_true_eq, BitVec.toInt_eq_toNat_cond, BitVec.toNat_add, BitVec.toNat_ofNat]
      split_ifs at h1 h2 hneg ⊢ <;> omega
    · have hneg : ¬ x.slt 0#32 = true := fun h => hc ((StableHlo.Predicate.ofBool_eq_one_iff _).2 h)
      simp only [BitVec.slt, decide_eq_true_eq, BitVec.toInt_eq_toNat_cond, BitVec.toNat_ofNat] at hneg
      simp only [BitVec.sle, decide_eq_true_eq, BitVec.toInt_eq_toNat_cond, BitVec.toNat_ofNat]
      split_ifs at h1 h2 hneg ⊢ <;> omega
  show IntOp.andi (BitVec.ofBool ((0#32).sle (wrapS x))) (BitVec.ofBool ((wrapS x).sle 99999#32)) = 1#1
  rw [key.1, key.2]; decide

/-- A left fold by `and` from 1 over words that are all 1 is 1. -/
theorem foldl_andi_ones {ι : Type} (f : ι → BitVec 1) (hf : ∀ i, f i = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (by rw [h, hf a]; decide)

/-- Every column index is in range of the 100000-row table, a negative one counting from the end. -/
def ColsInRange (col : IVec S1600000 32) : Prop :=
  ∀ e : S1600000.Idx, (4294867296#32).sle (col e) = true ∧ (col e).slt 100000#32 = true

/-- An entry of the normalised index column is the normalisation of some column index. -/
theorem wrap_apply (col : IVec S1600000 32) (k : S1600000x1.Idx) : ∃ e : S1600000.Idx, wrap col k = wrapS (col e) :=
  ⟨_, rfl⟩

/-- With every column index in range the mask is 1 everywhere. -/
theorem inRange_wrap (col : IVec S1600000 32) (h : ColsInRange col) : inRange (wrap col) = fun _ => 1#1 := by
  funext i
  show Host.reduce IntOp.andi _ _ _ _ _ = 1#1
  rw [Host.reduce_eq_foldl]
  refine foldl_andi_ones _ (fun k => ?_) _ _ rfl
  obtain ⟨e, he⟩ := wrap_apply col k
  show IntOp.andi (IntOp.cmpi .sge (wrap col k) 0#32) (IntOp.cmpi .sle (wrap col k) 99999#32) = 1#1
  rw [he]
  exact wrapS_ok (col e) (h e).1 (h e).2

/-- So the gather with its fill is the plain gather. -/
theorem take_eq (h : FVec F S100000x64 .f32) (col : IVec S1600000 32) (hc : ColsInRange col) :
    take h col = Host.gather gather_S100000x64_S1600000x1_S1600000x64_1_0_n_n_0_1_164 h (wrap col) := by
  unfold take
  rw [inRange_wrap col hc]
  funext i
  unfold select Scalar.select
  exact if_pos rfl

instance : Subsingleton Cert.Pre_finite_inputs.S_.Idx := ⟨fun a b => funext fun d => d.elim0⟩

/-- The precondition's last conjunct, read back. -/
theorem cols_of_pre (x : FVec F S100000x64 .f32) (row col : IVec S1600000 32) (ev : FVec F S1600000 .f32)
    (hp : Cert.Pre_finite_inputs.fn (F := F) x row col ev = fun _ => 1#1) : ColsInRange col := by
  intro e
  have h0 := congrFun hp ValueIdx.ix0
  dsimp only [Cert.Pre_finite_inputs.fn] at h0
  obtain ⟨-, h14⟩ := IntOp.andi_eq_one.1 h0
  have hP := Host.reduce_andi_all _ _ _ _ _ h14 e
  obtain ⟨ha, hb⟩ := IntOp.andi_eq_one.1 hP
  exact ⟨(StableHlo.Predicate.ofBool_eq_one_iff _).1 ha, (StableHlo.Predicate.ofBool_eq_one_iff _).1 hb⟩

end Cert.KernelIdeal.InRange

end
-- ==== Proof.Bridge.lean ====
/-
  The kernel's product and the reference's are one function. Both normalise the column indices the same way, gather
  the table's rows at them and add the weighted rows into the rows the row indices name, from zero, with the same
  gather and the same scatter-add; they differ in two places. The kernel's gather carries a fill for out-of-range
  indices, which under the precondition's range conjunct is never used (InRange). And the kernel multiplies the
  gathered entry by the weight, g(e, d) * w(e, 0) with w the weights reshaped to a column, where the reference
  multiplies the weight, broadcast to a column and then along the features, by the gathered entry: both columns read
  the weight of edge e at (e, 0), and the product of two extended reals commutes. Nothing here needs the inputs finite.
-/
import proofs.«410703_j6279242186783_2_alg».proof.Defs
import proofs.«410703_j6279242186783_2_alg».proof.Proof.KernelValue
import proofs.«410703_j6279242186783_2_alg».proof.Proof.InRange
import proofs.«410703_j6279242186783_2_alg».proof.Proof.Gen.ReferenceIdeal.Run
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.ValueIdx

namespace Cert.Bridge

/-- One product with the sparse matrix as the reference computes it: its printed operations' term. -/
def spmmR (h : FVec Ideal Cert.ReferenceIdeal.S100000x64 .f32) (row col : IVec Cert.ReferenceIdeal.S1600000 32)
    (ev : FVec Ideal Cert.ReferenceIdeal.S1600000 .f32) : FVec Ideal Cert.ReferenceIdeal.S100000x64 .f32 :=
  open Cert.ReferenceIdeal Cert.ReferenceIdeal.Gen in
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 ev))
      (Host.gather gather_S100000x64_S1600000x1_S1600000x64_1_0_n_n_0_1_164 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The launch's scaling is the reference's product with the broadcast weights: at (e, d) both read the weight of
    edge e, and the product commutes. -/
theorem scaled_eq (g : FVec Ideal Cert.KernelIdeal.S1600000x64 .f32) (ev : FVec Ideal Cert.KernelIdeal.S1600000 .f32) :
    Cert.KernelIdeal.Scale.scaled g (Cert.KernelIdeal.Spec.weights ev)
      = mulf (broadcastInDim Cert.ReferenceIdeal.S1600000x64 ![0, 1] Cert.ReferenceIdeal.Gen.bcast_S1600000x1_S1600000x64_0_1
          (broadcastInDim Cert.ReferenceIdeal.S1600000x1 ![0] Cert.ReferenceIdeal.Gen.bcast_S1600000_S1600000x1_0 ev)) g := by
  funext i
  obtain ⟨p, q, rfl⟩ : ∃ (p : Fin 1600000) (q : Fin 64), i = ix2 p q := ⟨i 0, i 1, eq_ix2 i⟩
  show g (ix2 p q) * shapeCast Cert.KernelIdeal.S1600000x1 ev _ (ix2 p 0)
    = broadcastInDim Cert.ReferenceIdeal.S1600000x64 ![0, 1] _ (broadcastInDim Cert.ReferenceIdeal.S1600000x1 ![0] _ ev) (ix2 p q) * g (ix2 p q)
  rw [shapeCast_apply ev _ (ix2 p 0) (ix1 p) (by
        rw [Shape.rowMajor_val_one, Shape.rowMajor_val_two]; show p.val = p.val * 1 + 0; omega),
    broadcastInDim_apply _ _ _ (ix2 p q) (ix2 p 0) (fun a => by match a with | ⟨0, _⟩ => rfl | ⟨1, _⟩ => rfl),
    broadcastInDim_apply _ _ ev (ix2 p 0) (ix1 p) (fun a => by match a with | ⟨0, _⟩ => rfl)]
  exact mul_comm _ _

/-- One product: the kernel's is the reference's, when every column index is in range. -/
theorem spmm_eq (h : FVec Ideal Cert.KernelIdeal.S100000x64 .f32) (row col : IVec Cert.KernelIdeal.S1600000 32)
    (ev : FVec Ideal Cert.KernelIdeal.S1600000 .f32) (hc : Cert.KernelIdeal.InRange.ColsInRange col) :
    Cert.KernelIdeal.Spec.spmm (F := Ideal) h row col ev = spmmR h row col ev := by
  unfold Cert.KernelIdeal.Spec.spmm Cert.KernelIdeal.Spec.sumRows spmmR
  rw [Cert.KernelIdeal.InRange.take_eq h col hc, scaled_eq]
  rfl

/-- Two products. -/
theorem products_eq (x : FVec Ideal Cert.KernelIdeal.S100000x64 .f32) (row col : IVec Cert.KernelIdeal.S1600000 32)
    (ev : FVec Ideal Cert.KernelIdeal.S1600000 .f32) (hc : Cert.KernelIdeal.InRange.ColsInRange col) :
    Cert.KernelIdeal.Spec.spmm (F := Ideal) (Cert.KernelIdeal.Spec.spmm x row col ev) row col ev
      = spmmR (spmmR x row col ev) row col ev := by
  rw [spmm_eq x row col ev hc, spmm_eq _ row col ev hc]

end Cert.Bridge

end
-- ==== Proof.lean ====
/-
  Two products with a sparse matrix given as (row, col, value) triples: h ← A h, twice, over a 100000 x 64 table and
  1600000 edges. One product gathers the table's rows at the column indices, scales row e by the weight of edge e and
  adds the scaled rows into the rows the row indices name. The kernel does the scaling in a launch over 125 blocks of
  12800 edges and the gather and the scatter-add on the host, as the reference does all three; at the ideal instance the
  two programs compute the same array once every column index is in range of the table (the precondition's third
  conjunct), because then the kernel's gather never uses its out-of-range fill and the rest differs by the order of
  one product of extended reals.
  The frames of the two kernel programs are the generated ones; the reference's frame is its generated run with the
  result dropped; the ideal pass rewrote nothing, so the kernel's idealization is preserved trivially; the value claim
  puts the kernel's run, read through its segments (KernelValue), beside the reference's generated run (Bridge).
-/
import proofs.«410703_j6279242186783_2_alg».proof.Defs
import proofs.«410703_j6279242186783_2_alg».proof.Proof.Gen.Kernel
import proofs.«410703_j6279242186783_2_alg».proof.Proof.Gen.Kernel.Frame
import proofs.«410703_j6279242186783_2_alg».proof.Proof.Gen.KernelIdeal
import proofs.«410703_j6279242186783_2_alg».proof.Proof.Gen.KernelIdeal.Frame
import proofs.«410703_j6279242186783_2_alg».proof.Proof.Gen.ReferenceIdeal
import proofs.«410703_j6279242186783_2_alg».proof.Proof.Gen.ReferenceIdeal.Run
import proofs.«410703_j6279242186783_2_alg».proof.Proof.Gen.Pre_finite_inputs
import proofs.«410703_j6279242186783_2_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the two products of the arguments: the kernel's by its run read
    through its segments, the reference's by its generated run, the two terms one function when the column indices
    are in range, which the precondition says. -/
theorem algebraic : Cert.algebraic_KernelIdeal_ReferenceIdeal := by
  intro m ρ m' ρ' hpre hagree
  have hcols : ∀ c : Dev Cert.KernelIdeal.nD, Cert.KernelIdeal.InRange.ColsInRange (m ((c.tc : Thread Cert.KernelIdeal.nD Cert.KernelIdeal.τ).loc Cert.KernelIdeal.main_arg2)) :=
    fun c => Cert.KernelIdeal.InRange.cols_of_pre _ _ _ _ (hpre c)
  refine ⟨_, Cert.KernelIdeal.Fold.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.Bridge.products_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hcols c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
